-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S16x32 : Shape := ⟨2, ![16, 32]⟩
abbrev S16 : Shape := ⟨1, ![16]⟩
abbrev S1x16 : Shape := ⟨2, ![1, 16]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S1x16 : S_.BroadcastsInDim S1x16 (![] : Fin 0 → Fin S1x16.rank)
  reducesTo_S1x16_S_d0_1 : S1x16.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1x16 .f32) (main_arg6 : FVec F S1x16 .f32) (main_arg7 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S1x16 .f32 := Host.absf main_arg5
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1x16 .f32 := Host.absf main_arg6
  let main_cst_8 : FVec F S_ .f32 := constant S_ .f32 0x7F800000#32
  let main_v25 : FVec F S1x16 .f32 := broadcastInDim S1x16 ![] bcast_S_S1x16 main_cst_8
  let main_v26 : IVec S1x16 1 := cmpf .olt main_v24 main_v25
  let main_c_9 : IVec S_ 1 := constantI S_ 1 1#1
  let main_v27 : IVec S_ 1 := (fun x v => Host.reduce IntOp.andi x v reducesTo_S1x16_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x32 .f32) (main_arg1 : IVec S2x3200000 32) (main_arg2 : FVec F S16x32 .f32) (main_arg3 : FVec F S16x32 .f32) (main_arg4 : FVec F S16 .f32) (main_arg5 : FVec F S1x16 .f32) (main_arg6 : FVec F S1x16 .f32) (main_arg7 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x32 : Shape := ⟨2, ![100000, 32]⟩
abbrev S2x3200000 : Shape := ⟨2, ![2, 3200000]⟩
abbrev S16x32 : Shape := ⟨2, ![16, 32]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S32x16 : Shape := ⟨2, ![32, 16]⟩
abbrev S100000x16 : Shape := ⟨2, ![100000, 16]⟩
abbrev S5000x32 : Shape := ⟨2, ![5000, 32]⟩
abbrev S5000x16 : Shape := ⟨2, ![5000, 16]⟩
abbrev S3200000x16 : Shape := ⟨2, ![3200000, 16]⟩
abbrev S16x1 : Shape := ⟨2, ![16, 1]⟩
abbrev S1x1 : Shape := ⟨2, ![1, 1]⟩
abbrev S5000x1 : Shape := ⟨2, ![5000, 1]⟩

abbrev nBuf : Space → Nat
  | .hbm => 65
  | .vmem => 18
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1x16, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x32, .f32⟩
  | .hbm, ⟨33, _⟩ => ⟨S_, .f32⟩
  | .hbm, ⟨34, _⟩ => ⟨S100000x32, .f32⟩
  | .hbm, ⟨35, _⟩ => ⟨S3200000x1, .i32⟩
  | .hbm, ⟨36, _⟩ => ⟨S100000x32, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S32x16, .f32⟩
  | .hbm, ⟨41, _⟩ => ⟨S32x16, .f32⟩
  | .hbm, ⟨42, _⟩ => ⟨S1x16, .f32⟩
  | .hbm, ⟨43, _⟩ => ⟨S100000x16, .f32⟩
  | .hbm, ⟨44, _⟩ => ⟨S_, .i32⟩
  | .hbm, ⟨45, _⟩ => ⟨S3200000, .i32⟩
  | .hbm, ⟨46, _⟩ => ⟨S3200000, .i1⟩
  | .hbm, ⟨47, _⟩ => ⟨S_, .i32⟩
  | .hbm, ⟨48, _⟩ => ⟨S3200000, .i32⟩
  | .hbm, ⟨49, _⟩ => ⟨S3200000, .i32⟩
  | .hbm, ⟨50, _⟩ => ⟨S3200000, .i32⟩
  | .hbm, ⟨51, _⟩ => ⟨S3200000x1, .i32⟩
  | .hbm, ⟨52, _⟩ => ⟨S3200000x16, .f32⟩
  | .hbm, ⟨53, _⟩ => ⟨S_, .f32⟩
  | .hbm, ⟨54, _⟩ => ⟨S100000x16, .f32⟩
  | .hbm, ⟨55, _⟩ => ⟨S3200000x1, .i32⟩
  | .hbm, ⟨56, _⟩ => ⟨S100000x16, .f32⟩
  | .hbm, ⟨57, _⟩ => ⟨S100000x1, .f32⟩
  | .hbm, ⟨58, _⟩ => ⟨S100000x16, .f32⟩
  | .hbm, ⟨59, _⟩ => ⟨S100000x16, .f32⟩
  | .hbm, ⟨60, _⟩ => ⟨S16x1, .f32⟩
  | .hbm, ⟨61, _⟩ => ⟨S16x1, .f32⟩
  | .hbm, ⟨62, _⟩ => ⟨S1x1, .f32⟩
  | .hbm, ⟨63, _⟩ => ⟨S100000x1, .f32⟩
  | .hbm, ⟨64, _⟩ => ⟨S100000, .f32⟩
  | .local _ .vmem, ⟨0, _⟩ => ⟨S5000x32, .f32⟩
  | .local _ .vmem, ⟨1, _⟩ => ⟨S5000x32, .f32⟩
  | .local _ .vmem, ⟨2, _⟩ => ⟨S5000x32, .f32⟩
  | .local _ .vmem, ⟨3, _⟩ => ⟨S5000x32, .f32⟩
  | .local _ .vmem, ⟨4, _⟩ => ⟨S32x16, .f32⟩
  | .local _ .vmem, ⟨5, _⟩ => ⟨S32x16, .f32⟩
  | .local _ .vmem, ⟨6, _⟩ => ⟨S1x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S16x1, .f32⟩
  | .local _ .vmem, ⟨14, _⟩ => ⟨S16x1, .f32⟩
  | .local _ .vmem, ⟨15, _⟩ => ⟨S1x1, .f32⟩
  | .local _ .vmem, ⟨16, _⟩ => ⟨S5000x1, .f32⟩
  | .local _ .vmem, ⟨17, _⟩ => ⟨S5000x1, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S16x32_S32x16_1_0 : S16x32.Transposes [1, 0] S32x16
  shapeCasts_S16_S1x16 : S16.ShapeCasts S1x16
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  bitsLt_bf16_f32 : FTy.bits .bf16 < FTy.bits .f32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S1x16_S16x1_1_0 : S1x16.Transposes [1, 0] S16x1
  shapeCasts_S1_S1x1 : S1.ShapeCasts S1x1
  shapeCasts_S5000x16_S5000x16 : S5000x16.ShapeCasts S5000x16
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x1_S5000x1_1_0_0_1_n_n_wf : DotDims.WF S5000x16 S16x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x16.size a ≤ S32x16.size a
  hwx0_2 : ∀ i : grid0.Coords, EltTy.bits .f32 = 32 ∨ (Rect.block (s := S32x16) S32x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x16.size a ≤ S100000x16.size a
  hwx0_5 : ∀ i : grid0.Coords, EltTy.bits .f32 = 32 ∨ (Rect.block (s := S100000x16) S5000x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x1.size a ≤ S16x1.size a
  hwx1_2 : ∀ i : grid1.Coords, EltTy.bits .f32 = 32 ∨ (Rect.block (s := S16x1) S16x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x1.size a ≤ S16x1.size a
  hwx1_3 : ∀ i : grid1.Coords, EltTy.bits .f32 = 32 ∨ (Rect.block (s := S16x1) S16x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x1_S5000x1_1_0_0_1_n_n : DotDims S5000x16 S16x1 S5000x1 where
  lhsContracting := [1]
  rhsContracting := [0]
  lhsNonContracting := [0]
  rhsNonContracting := [1]
  lhsBatch := []
  rhsBatch := []
  wf := dot_S5000x16_S16x1_S5000x1_1_0_0_1_n_n_wf

abbrev win0_0 : Pipeline.Window sig grid0 :=
  Pipeline.Window.ofSpec (Memref.whole main_v24) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S32x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S16x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S16x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S16x32 : Shape := ⟨2, ![16, 32]⟩
abbrev S16 : Shape := ⟨1, ![16]⟩
abbrev S1x16 : Shape := ⟨2, ![1, 16]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x32 : Shape := ⟨2, ![3200000, 32]⟩
abbrev S100000x1 : Shape := ⟨2, ![100000, 1]⟩
abbrev S32x16 : Shape := ⟨2, ![32, 16]⟩
abbrev S100000x16 : Shape := ⟨2, ![100000, 16]⟩
abbrev S3200000x16 : Shape := ⟨2, ![3200000, 16]⟩
abbrev S16x1 : Shape := ⟨2, ![16, 1]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x3200000, .i32⟩
  | .hbm, ⟨2, _⟩ => ⟨S16x32, .f32⟩
  | .hbm, ⟨3, _⟩ => ⟨S16x32, .f32⟩
  | .hbm, ⟨4, _⟩ => ⟨S16, .f32⟩
  | .hbm, ⟨5, _⟩ => ⟨S1x16, .f32⟩
  | .hbm, ⟨6, _⟩ => ⟨S1x16, .f32⟩
  | .hbm, ⟨7, _⟩ => ⟨S1, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S_, .f32⟩
  | .hbm, ⟨13, _⟩ => ⟨S3200000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x32, .f32⟩
  | .hbm, ⟨33, _⟩ => ⟨S_, .f32⟩
  | .hbm, ⟨34, _⟩ => ⟨S100000x32, .f32⟩
  | .hbm, ⟨35, _⟩ => ⟨S3200000x1, .i32⟩
  | .hbm, ⟨36, _⟩ => ⟨S100000x32, .f32⟩
  | .hbm, ⟨37, _⟩ => ⟨S100000x1, .f32⟩
  | .hbm, ⟨38, _⟩ => ⟨S100000x32, .f32⟩
  | .hbm, ⟨39, _⟩ => ⟨S100000x32, .f32⟩
  | .hbm, ⟨40, _⟩ => ⟨S32x16, .f32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S100000x16, .f32⟩
  | .hbm, ⟨45, _⟩ => ⟨S32x16, .f32⟩
  | .hbm, ⟨46, _⟩ => ⟨S100000x16, .f32⟩
  | .hbm, ⟨47, _⟩ => ⟨S100000x16, .f32⟩
  | .hbm, ⟨48, _⟩ => ⟨S_, .f32⟩
  | .hbm, ⟨49, _⟩ => ⟨S100000x16, .f32⟩
  | .hbm, ⟨50, _⟩ => ⟨S100000x16, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x16, .f32⟩
  | .hbm, ⟨60, _⟩ => ⟨S_, .f32⟩
  | .hbm, ⟨61, _⟩ => ⟨S100000x16, .f32⟩
  | .hbm, ⟨62, _⟩ => ⟨S3200000x1, .i32⟩
  | .hbm, ⟨63, _⟩ => ⟨S100000x16, .f32⟩
  | .hbm, ⟨64, _⟩ => ⟨S100000x1, .f32⟩
  | .hbm, ⟨65, _⟩ => ⟨S100000x16, .f32⟩
  | .hbm, ⟨66, _⟩ => ⟨S100000x16, .f32⟩
  | .hbm, ⟨67, _⟩ => ⟨S16x1, .f32⟩
  | .hbm, ⟨68, _⟩ => ⟨S100000x1, .f32⟩
  | .hbm, ⟨69, _⟩ => ⟨S1x1, .f32⟩
  | .hbm, ⟨70, _⟩ => ⟨S100000x1, .f32⟩
  | .hbm, ⟨71, _⟩ => ⟨S100000x1, .f32⟩
  | .hbm, ⟨72, _⟩ => ⟨S16x1, .f32⟩
  | .hbm, ⟨73, _⟩ => ⟨S100000x1, .f32⟩
  | .hbm, ⟨74, _⟩ => ⟨S100000x1, .f32⟩
  | .hbm, ⟨75, _⟩ => ⟨S100000, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S1x16_S16x1_1_0 : S1x16.Transposes [1, 0] S16x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S3200000x1_S3200000_n_0_0_1_wf : ScatterDims.WF S100000 S3200000x1 S3200000 [] [0] [0] 1
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x1_S100000x1_1_0_0_1_n_n_wf : DotDims.WF S100000x16 S16x1 S100000x1 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x1_S100000x1_1_0_0_1_n_n : DotDims S100000x16 S16x1 S100000x1 where
  lhsContracting := [1]
  rhsContracting := [0]
  lhsNonContracting := [0]
  rhsNonContracting := [1]
  lhsBatch := []
  rhsBatch := []
  wf := dot_S100000x16_S16x1_S100000x1_1_0_0_1_n_n_wf

class Facts : Prop extends Facts₀ where

variable [Facts]
-- ==== Proof.Combine.lean ====
/-
  One SAGE layer's combination stage as a function of whole arrays, at the ideal instance (entries are extended reals).
  For a node r and an output channel o,

    layer (A, X, Wl, Wr, B) (r, o) = ( Σ_k A(r,k) · Wl(k,o)  +  Σ_k X(r,k) · Wr(k,o) )  +  B(0,o),

  A the mean-aggregated neighbour features, X the node's own features, Wl and Wr the two (transposed) weight matrices,
  B the bias as a one-row matrix. The first layer clamps the result below at zero; the second does not, and has a
  single output channel. The two products are summed first and the bias is added last.
-/
import proofs.«157613_j14920716386718_1_alg».proof.KernelIdeal
import Idealize.ShloMosaic.PureOps.Ideal
import Idealize.ShloMosaic.Lib.ValueIdx

noncomputable section

namespace Cert.Combine

open Idealize.ShloMosaic Cert.KernelIdeal

/-! ## Layer 1: 32 input channels, 16 output channels -/

/-- Entry (r, k) of a 100000 × 32 array, r the row of the output index. -/
abbrev row32 (i : S100000x16.Idx) (k : Fin 32) : S100000x32.Idx := fun a => match a with
  | ⟨0, _⟩ => ⟨(i 0).val, (i 0).isLt⟩
  | ⟨1, _⟩ => ⟨k.val, k.isLt⟩
/-- Entry (k, o) of a 32 × 16 array, o the column of the output index. -/
abbrev col32 (i : S100000x16.Idx) (k : Fin 32) : S32x16.Idx := fun a => match a with
  | ⟨0, _⟩ => ⟨k.val, k.isLt⟩
  | ⟨1, _⟩ => ⟨(i 1).val, (i 1).isLt⟩
/-- Entry (0, o) of a 1 × 16 array. -/
abbrev bias16 (i : S100000x16.Idx) : S1x16.Idx := fun a => match a with
  | ⟨0, _⟩ => ⟨0, Nat.one_pos⟩
  | ⟨1, _⟩ => ⟨(i 1).val, (i 1).isLt⟩

/-- The first layer: the two products, then the bias, then the clamp at zero. -/
def layer1 (A X : FVec Ideal S100000x32 .f32) (Wl Wr : FVec Ideal S32x16 .f32) (B : FVec Ideal S1x16 .f32) :
    FVec Ideal S100000x16 .f32 := fun i =>
  max (((∑ k : Fin 32, A (row32 i k) * Wl (col32 i k)) + (∑ k : Fin 32, X (row32 i k) * Wr (col32 i k))) + B (bias16 i))
    (Ideal.ofBits .f32 0x00000000#32)

/-! ## Layer 2: 16 input channels, 1 output channel -/

/-- Entry (r, k) of a 100000 × 16 array, r the row of the output index. -/
abbrev row16 (i : S100000x1.Idx) (k : Fin 16) : S100000x16.Idx := fun a => match a with
  | ⟨0, _⟩ => ⟨(i 0).val, (i 0).isLt⟩
  | ⟨1, _⟩ => ⟨k.val, k.isLt⟩
/-- Entry (k, 0) of a 16 × 1 array. -/
abbrev col16 (i : S100000x1.Idx) (k : Fin 16) : S16x1.Idx := fun a => match a with
  | ⟨0, _⟩ => ⟨k.val, k.isLt⟩
  | ⟨1, _⟩ => ⟨(i 1).val, (i 1).isLt⟩
/-- Entry (0, 0) of a 1 × 1 array. -/
abbrev bias1 (i : S100000x1.Idx) : S1x1.Idx := fun a => match a with
  | ⟨0, _⟩ => ⟨0, Nat.one_pos⟩
  | ⟨1, _⟩ => ⟨(i 1).val, (i 1).isLt⟩

/-- The second layer: the two products, then the bias. -/
def layer2 (A X : FVec Ideal S100000x16 .f32) (Wl Wr : FVec Ideal S16x1 .f32) (B : FVec Ideal S1x1 .f32) :
    FVec Ideal S100000x1 .f32 := fun i =>
  ((∑ k : Fin 16, A (row16 i k) * Wl (col16 i k)) + (∑ k : Fin 16, X (row16 i k) * Wr (col16 i k))) + B (bias1 i)

end Cert.Combine

end
-- ==== Proof.Region0.lean ====
/-
  The first layer's region: what each grid point writes back, and the array it leaves.

  The grid has 20 points; point t stages rows 5000·t … 5000·t + 4999 of the aggregated features and of the node
  features (5000 × 32 blocks), both whole weight matrices (32 × 16) and the whole one-row bias (1 × 16), and writes the
  5000 × 16 block of rows 5000·t … 5000·t + 4999 of the output. Inside a block, entry (p, q) is

      max( ( Σ_k a(p,k) · wl(k,q)  +  Σ_k x(p,k) · wr(k,q) )  +  b(0,q) ,  0 ),

  the two matrix products into a zero accumulator (a change of float format is the identity on extended reals), the
  bias broadcast along the rows, the clamp at zero. The 20 blocks tile the output, so the array after the region is
  the first layer's combination of the region's entry arrays, row by row.
-/
import proofs.«157613_j14920716386718_1_alg».proof.Proof.Gen.KernelIdeal.Frame
import proofs.«157613_j14920716386718_1_alg».proof.Proof.Combine
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Combine
open Idealize.ShloMosaic Idealize.ShloMosaic.TcCoe Idealize.SL.Sem
open Idealize.ShloMosaic.Pipeline (Dat Cfg Window)

/-! ## A block's matrix product at an index -/

/-- The left operand's index at output (p, q) and contraction index: its row is p. -/
theorem lhs_ax0 (j : S5000x16.Idx) (q : dot_S5000x32_S32x16_S5000x16_1_0_0_1_n_n.contr.Idx) :
    (dot_S5000x32_S32x16_S5000x16_1_0_0_1_n_n.lhsIdx j q 0).val = (j 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
/-- … and its column is the contraction index. -/
theorem lhs_ax1 (j : S5000x16.Idx) (q : dot_S5000x32_S32x16_S5000x16_1_0_0_1_n_n.contr.Idx) :
    (dot_S5000x32_S32x16_S5000x16_1_0_0_1_n_n.lhsIdx j q 1).val = (q ⟨0, by decide⟩).val :=
  dot_S5000x32_S32x16_S5000x16_1_0_0_1_n_n.lhsIdx_val_of_single rfl j q
/-- The right operand's row is the contraction index. -/
theorem rhs_ax0 (j : S5000x16.Idx) (q : dot_S5000x32_S32x16_S5000x16_1_0_0_1_n_n.contr.Idx) :
    (dot_S5000x32_S32x16_S5000x16_1_0_0_1_n_n.rhsIdx j q 0).val = (q ⟨0, by decide⟩).val :=
  dot_S5000x32_S32x16_S5000x16_1_0_0_1_n_n.rhsIdx_val_of_single rfl j q
/-- … and its column is q. -/
theorem rhs_ax1 (j : S5000x16.Idx) (q : dot_S5000x32_S32x16_S5000x16_1_0_0_1_n_n.contr.Idx) :
    (dot_S5000x32_S32x16_S5000x16_1_0_0_1_n_n.rhsIdx j q 1).val = (j 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- Entry (p, k) of a 5000 × 32 block, p the row of the block's output index. -/
abbrev brow (j : S5000x16.Idx) (k : Fin 32) : S5000x32.Idx := fun a => match a with
  | ⟨0, _⟩ => ⟨(j 0).val, (j 0).isLt⟩
  | ⟨1, _⟩ => ⟨k.val, k.isLt⟩
/-- Entry (k, q) of a 32 × 16 matrix, q the column of the block's output index. -/
abbrev bcol (j : S5000x16.Idx) (k : Fin 32) : S32x16.Idx := fun a => match a with
  | ⟨0, _⟩ => ⟨k.val, k.isLt⟩
  | ⟨1, _⟩ => ⟨(j 1).val, (j 1).isLt⟩
/-- Entry (0, q) of the one-row bias. -/
abbrev bbias (j : S5000x16.Idx) : S1x16.Idx := fun a => match a with
  | ⟨0, _⟩ => ⟨0, Nat.one_pos⟩
  | ⟨1, _⟩ => ⟨(j 1).val, (j 1).isLt⟩

/-- A block's product into the zero accumulator, at (p, q): the sum over k of l(p,k) · r(k,q). -/
theorem matmul_at {φ₁ φ₂ : FTy} (l : FVec Ideal S5000x32 φ₁) (r : FVec Ideal S32x16 φ₂) (j : S5000x16.Idx) :
    matmul (F := Ideal) dot_S5000x32_S32x16_S5000x16_1_0_0_1_n_n none l r (constant (F := Ideal) S5000x16 .f32 0x00000000#32) j
      = ∑ k : Fin 32, l (brow j k) * r (bcol j k) := by
  show FloatOps.matmul dot_S5000x32_S32x16_S5000x16_1_0_0_1_n_n none l r (constant (F := Ideal) S5000x16 .f32 0x00000000#32) j = _
  rw [Ideal.matmul_constant_zero_apply, ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx j ((ValueIdx.contrEquiv1 dot_S5000x32_S32x16_S5000x16_1_0_0_1_n_n 32 rfl rfl).symm k) = brow j k := funext fun a => Fin.ext (by
    match a with
    | ⟨0, _⟩ => exact lhs_ax0 _ _
    | ⟨1, _⟩ => exact (lhs_ax1 _ _).trans hk)
  have er : dot_S5000x32_S32x16_S5000x16_1_0_0_1_n_n.rhsIdx j ((ValueIdx.contrEquiv1 dot_S5000x32_S32x16_S5000x16_1_0_0_1_n_n 32 rfl rfl).symm k) = bcol j k := funext fun a => Fin.ext (by
    match a with
    | ⟨0, _⟩ => exact (rhs_ax0 _ _).trans hk
    | ⟨1, _⟩ => exact rhs_ax1 _ _)
  rw [el, er]

/-! ## The body's stored value at an index -/

/-- The one-row bias broadcast along the rows, at (p, q), is its entry (0, q). -/
theorem bias_at (x4 : Vec Ideal S1x16 .f32) (j : S5000x16.Idx) :
    broadcastTo S5000x16 x4 broadcasts_S1x16_S5000x16 j = x4 (bbias j) :=
  broadcastTo_apply x4 broadcasts_S1x16_S5000x16 j (bbias j) (fun a => by
    match a with
    | ⟨0, _⟩ => rfl
    | ⟨1, _⟩ => rfl)

/-- What the body stores, at (p, q), from the five loaded blocks. -/
theorem pay_at (x0 x1 : Vec Ideal S5000x32 .f32) (x2 x3 : Vec Ideal S32x16 .f32) (x4 : Vec Ideal S1x16 .f32) (j : S5000x16.Idx) :
    k0_pay1 (F := Ideal) x0 x1 x2 x3 x4 j
      = max (((∑ k : Fin 32, x0 (brow j k) * x2 (bcol j k)) + (∑ k : Fin 32, x1 (brow j k) * x3 (bcol j k))) + x4 (bbias j))
          (Ideal.ofBits .f32 0x00000000#32) := by
  unfold k0_pay1
  simp only [shapeCast_self]
  rw [ValueIdx.maximumf_apply, ValueIdx.addf_apply, ValueIdx.addf_apply, matmul_at, matmul_at, bias_at]
  rfl

/-! ## The index maps over the grid -/

theorem hz : (![0, 0] : Fin 2 → Nat) = fun _ => 0 := funext fun a => by fin_cases a <;> rfl

/-- Point t's blocks: block row t of the two row-blocked inputs and of the output; the two weight matrices and the
    bias are one block each. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks

variable (V : (c : Dev nD) → (b : Ref sig .tc) → Buf (Elt Ideal) ((c : Thread nD τ).loc b))

/-! ## Each input block read where the output block's entry lies

An entry of a block has array coordinate (block index) × (block extent) + (coordinate inside the block) on each axis. -/

/-- The aggregated features' block, at (p, k): the array's entry (row of the output entry, k). -/
theorem read_agg (c : Dev nD) (t : Fin cfg0.N) (j : S5000x16.Idx) (k : Fin 32) :
    iblk0 V c 0 t (brow j k) = V c main_v24 (row32 (((cfg0.win 5).blk t).view.emb j) k) := by
  obtain ⟨e00, e01, e10, e11, e20, e21, e30, e31, e40, e41, e50, e51⟩ := idx_facts t
  show V c main_v24 (((cfg0.win 0).blk t).view.emb (brow j k)) = _
  refine congrArg (V c main_v24) (funext fun a => Fin.ext ?_)
  match a with
  | ⟨0, _⟩ =>
    show win0_0.index t (0 : Fin 2) * 5000 + 1 * (j 0).val = win0_5.index t (0 : Fin 2) * 5000 + 1 * (j 0).val
    omega
  | ⟨1, _⟩ =>
    show win0_0.index t (1 : Fin 2) * 32 + 1 * k.val = k.val
    omega

/-- The node features' block, at (p, k). -/
theorem read_x (c : Dev nD) (t : Fin cfg0.N) (j : S5000x16.Idx) (k : Fin 32) :
    iblk0 V c 1 t (brow j k) = V c main_arg0 (row32 (((cfg0.win 5).blk t).view.emb j) k) := by
  obtain ⟨e00, e01, e10, e11, e20, e21, e30, e31, e40, e41, e50, e51⟩ := idx_facts t
  show V c main_arg0 (((cfg0.win 1).blk t).view.emb (brow j k)) = _
  refine congrArg (V c main_arg0) (funext fun a => Fin.ext ?_)
  match a with
  | ⟨0, _⟩ =>
    show win0_1.index t (0 : Fin 2) * 5000 + 1 * (j 0).val = win0_5.index t (0 : Fin 2) * 5000 + 1 * (j 0).val
    omega
  | ⟨1, _⟩ =>
    show win0_1.index t (1 : Fin 2) * 32 + 1 * k.val = k.val
    omega

/-- The first weight matrix, at (k, q). -/
theorem read_wl (c : Dev nD) (t : Fin cfg0.N) (j : S5000x16.Idx) (k : Fin 32) :
    iblk0 V c 2 t (bcol j k) = V c main_v25 (col32 (((cfg0.win 5).blk t).view.emb j) k) := by
  obtain ⟨e00, e01, e10, e11, e20, e21, e30, e31, e40, e41, e50, e51⟩ := idx_facts t
  show V c main_v25 (((cfg0.win 2).blk t).view.emb (bcol j k)) = _
  refine congrArg (V c main_v25) (funext fun a => Fin.ext ?_)
  match a with
  | ⟨0, _⟩ =>
    show win0_2.index t (0 : Fin 2) * 32 + 1 * k.val = k.val
    omega
  | ⟨1, _⟩ =>
    show win0_2.index t (1 : Fin 2) * 16 + 1 * (j 1).val = win0_5.index t (1 : Fin 2) * 16 + 1 * (j 1).val
    omega

/-- The second weight matrix, at (k, q). -/
theorem read_wr (c : Dev nD) (t : Fin cfg0.N) (j : S5000x16.Idx) (k : Fin 32) :
    iblk0 V c 3 t (bcol j k) = V c main_v26 (col32 (((cfg0.win 5).blk t).view.emb j) k) := by
  obtain ⟨e00, e01, e10, e11, e20, e21, e30, e31, e40, e41, e50, e51⟩ := idx_facts t
  show V c main_v26 (((cfg0.win 3).blk t).view.emb (bcol j k)) = _
  refine congrArg (V c main_v26) (funext fun a => Fin.ext ?_)
  match a with
  | ⟨0, _⟩ =>
    show win0_3.index t (0 : Fin 2) * 32 + 1 * k.val = k.val
    omega
  | ⟨1, _⟩ =>
    show win0_3.index t (1 : Fin 2) * 16 + 1 * (j 1).val = win0_5.index t (1 : Fin 2) * 16 + 1 * (j 1).val
    omega

/-- The bias, at (0, q). -/
theorem read_b (c : Dev nD) (t : Fin cfg0.N) (j : S5000x16.Idx) :
    iblk0 V c 4 t (bbias j) = V c main_v27 (bias16 (((cfg0.win 5).blk t).view.emb j)) := by
  obtain ⟨e00, e01, e10, e11, e20, e21, e30, e31, e40, e41, e50, e51⟩ := idx_facts t
  show V c main_v27 (((cfg0.win 4).blk t).view.emb (bbias j)) = _
  refine congrArg (V c main_v27) (funext fun a => Fin.ext ?_)
  match a with
  | ⟨0, _⟩ =>
    show win0_4.index t (0 : Fin 2) * 1 + 1 * 0 = 0
    omega
  | ⟨1, _⟩ =>
    show win0_4.index t (1 : Fin 2) * 16 + 1 * (j 1).val = win0_5.index t (1 : Fin 2) * 16 + 1 * (j 1).val
    omega

/-! ## What a point writes back, and the array after the region -/

/-- Point t writes back block t of the first layer's combination of the region's entry arrays. -/
theorem flushed_eq (c : Dev nD) (t : Fin cfg0.N) :
    (dat0 (F := Ideal) V c).flushed 5 t = ((cfg0.win 5).blk t).view.read (Elt Ideal)
      (layer1 (V c main_v24) (V c main_arg0) (V c main_v25) (V c main_v26) (V c main_v27)) := by
  show (cfg0.win 5).cut (grid0.coords t) ((dat0 (F := Ideal) V c).after 5 t) = _
  rw [after0_5]
  unfold out0_5
  rw [View.canon_unit_zero hz]
  simp only [View.ld_unit_zero (S := S5000x32) hz, View.ld_unit_zero (S := S32x16) hz, View.ld_unit_zero (S := S1x16) hz]
  funext j
  show k0_pay1 (F := Ideal) (iblk0 V c 0 t) (iblk0 V c 1 t) (iblk0 V c 2 t) (iblk0 V c 3 t) (iblk0 V c 4 t) j
      = layer1 (V c main_v24) (V c main_arg0) (V c main_v25) (V c main_v26) (V c main_v27) (((cfg0.win 5).blk t).view.emb j)
  refine (pay_at (iblk0 V c 0 t) (iblk0 V c 1 t) (iblk0 V c 2 t) (iblk0 V c 3 t) (iblk0 V c 4 t) j).trans ?_
  unfold layer1
  simp only [read_agg V c t j, read_x V c t j, read_wl V c t j, read_wr V c t j, read_b V c t j]

end Blocks

/-- An index of the output array is in point t's block iff each coordinate is in the block's range on its axis. -/
theorem mem_blk (t : Fin cfg0.N) (i : S100000x16.Idx) :
    i ∈ ((cfg0.win 5).blk t).view.set ↔ ∀ a : Fin 2, win0_5.index t a * S5000x16.size a ≤ (i a).val ∧ (i a).val < win0_5.index t a * S5000x16.size a + S5000x16.size a := by
  show i ∈ ((View.whole main_v28).slice (win0_5.rect t)).set ↔ _
  rw [View.set_slice_whole, Rect.mem_set_unit]
  exact Iff.rfl

/-- The 20 blocks of 5000 rows tile the 100000 rows: row r is in the block of point r / 5000. -/
theorem cover (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have ht : (i 0).val / 5000 < cfg0.N := by show (i 0).val / 5000 < grid0.N; rw [N_0]; omega
  obtain ⟨-, -, -, -, -, -, -, -, -, -, e50, e51⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    have e : win0_5.index ⟨(i 0).val / 5000, ht⟩ (0 : Fin 2) = (i 0).val / 5000 := e50
    omega
  | ⟨1, _⟩ =>
    show win0_5.index ⟨(i 0).val / 5000, ht⟩ (1 : Fin 2) * 16 ≤ (i 1).val ∧ (i 1).val < win0_5.index ⟨(i 0).val / 5000, ht⟩ (1 : Fin 2) * 16 + 16
    omega

/-- THE ARRAY AFTER THE REGION: the first layer's combination of the arrays the region was entered with. -/
theorem final (V : (c : Dev nD) → (b : Ref sig .tc) → Buf (Elt Ideal) ((c : Thread nD τ).loc b)) (c : Dev nD) :
    (dat0 (F := Ideal) V c).arrAt 5 cfg0.N = layer1 (V c main_v24) (V c main_arg0) (V c main_v25) (V c main_v26) (V c main_v27) :=
  (dat0 (F := Ideal) V c).arrAt_eq_of_cover 5 _ (fun t _ => flushed_eq V c t) cover

end Cert.KernelIdeal.Region0

end
-- ==== Proof.Region1.lean ====
/-
  The second layer's region: what each grid point writes back, and the array it leaves.

  The grid has 20 points; point t stages rows 5000·t … 5000·t + 4999 of the aggregated hidden features and of the
  hidden features (5000 × 16 blocks), both whole weight columns (16 × 1) and the whole 1 × 1 bias, and writes the
  5000 × 1 block of rows 5000·t … 5000·t + 4999 of the output. Inside a block, entry (p, 0) is

      ( Σ_k a(p,k) · wl(k,0)  +  Σ_k h(p,k) · wr(k,0) )  +  b(0,0),

  the two products into a zero accumulator, the bias broadcast along the rows; this layer has no clamp. The 20 blocks
  tile the output, so the array after the region is the second layer's combination of the region's entry arrays.
-/
import proofs.«157613_j14920716386718_1_alg».proof.Proof.Gen.KernelIdeal.Frame
import proofs.«157613_j14920716386718_1_alg».proof.Proof.Combine
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.Combine
open Idealize.ShloMosaic Idealize.ShloMosaic.TcCoe Idealize.SL.Sem
open Idealize.ShloMosaic.Pipeline (Dat Cfg Window)

/-! ## A block's matrix-vector product at an index -/

/-- The left operand's index at output (p, 0) and contraction index: its row is p. -/
theorem lhs_ax0 (j : S5000x1.Idx) (q : dot_S5000x16_S16x1_S5000x1_1_0_0_1_n_n.contr.Idx) :
    (dot_S5000x16_S16x1_S5000x1_1_0_0_1_n_n.lhsIdx j q 0).val = (j 0).val := by
  unfold DotDims.lhsIdx
  rw [dif_neg (show ¬(0 : Fin S5000x16.rank) ∈ dot_S5000x16_S16x1_S5000x1_1_0_0_1_n_n.lhsBatch by decide), dif_pos (show (0 : Fin S5000x16.rank) ∈ dot_S5000x16_S16x1_S5000x1_1_0_0_1_n_n.lhsNonContracting by decide)]
  rfl
/-- … and its column is the contraction index. -/
theorem lhs_ax1 (j : S5000x1.Idx) (q : dot_S5000x16_S16x1_S5000x1_1_0_0_1_n_n.contr.Idx) :
    (dot_S5000x16_S16x1_S5000x1_1_0_0_1_n_n.lhsIdx j q 1).val = (q ⟨0, by decide⟩).val :=
  dot_S5000x16_S16x1_S5000x1_1_0_0_1_n_n.lhsIdx_val_of_single rfl j q
/-- The right operand's row is the contraction index. -/
theorem rhs_ax0 (j : S5000x1.Idx) (q : dot_S5000x16_S16x1_S5000x1_1_0_0_1_n_n.contr.Idx) :
    (dot_S5000x16_S16x1_S5000x1_1_0_0_1_n_n.rhsIdx j q 0).val = (q ⟨0, by decide⟩).val :=
  dot_S5000x16_S16x1_S5000x1_1_0_0_1_n_n.rhsIdx_val_of_single rfl j q
/-- … and its column is the output's. -/
theorem rhs_ax1 (j : S5000x1.Idx) (q : dot_S5000x16_S16x1_S5000x1_1_0_0_1_n_n.contr.Idx) :
    (dot_S5000x16_S16x1_S5000x1_1_0_0_1_n_n.rhsIdx j q 1).val = (j 1).val := by
  unfold DotDims.rhsIdx
  rw [dif_neg (show ¬(1 : Fin S16x1.rank) ∈ dot_S5000x16_S16x1_S5000x1_1_0_0_1_n_n.rhsBatch by decide), dif_pos (show (1 : Fin S16x1.rank) ∈ dot_S5000x16_S16x1_S5000x1_1_0_0_1_n_n.rhsNonContracting by decide)]
  rfl

/-- Entry (p, k) of a 5000 × 16 block, p the row of the block's output index. -/
abbrev brow (j : S5000x1.Idx) (k : Fin 16) : S5000x16.Idx := fun a => match a with
  | ⟨0, _⟩ => ⟨(j 0).val, (j 0).isLt⟩
  | ⟨1, _⟩ => ⟨k.val, k.isLt⟩
/-- Entry (k, 0) of a 16 × 1 column. -/
abbrev bcol (j : S5000x1.Idx) (k : Fin 16) : S16x1.Idx := fun a => match a with
  | ⟨0, _⟩ => ⟨k.val, k.isLt⟩
  | ⟨1, _⟩ => ⟨(j 1).val, (j 1).isLt⟩
/-- The 1 × 1 bias's one entry. -/
abbrev bbias (j : S5000x1.Idx) : S1x1.Idx := fun a => match a with
  | ⟨0, _⟩ => ⟨0, Nat.one_pos⟩
  | ⟨1, _⟩ => ⟨(j 1).val, (j 1).isLt⟩

/-- A block's product into the zero accumulator, at (p, 0): the sum over k of l(p,k) · r(k,0). -/
theorem matmul_at {φ₁ φ₂ : FTy} (l : FVec Ideal S5000x16 φ₁) (r : FVec Ideal S16x1 φ₂) (j : S5000x1.Idx) :
    matmul (F := Ideal) dot_S5000x16_S16x1_S5000x1_1_0_0_1_n_n none l r (constant (F := Ideal) S5000x1 .f32 0x00000000#32) j
      = ∑ k : Fin 16, l (brow j k) * r (bcol j k) := by
  show FloatOps.matmul dot_S5000x16_S16x1_S5000x1_1_0_0_1_n_n none l r (constant (F := Ideal) S5000x1 .f32 0x00000000#32) j = _
  rw [Ideal.matmul_constant_zero_apply, ← Equiv.sum_comp (ValueIdx.contrEquiv1 dot_S5000x16_S16x1_S5000x1_1_0_0_1_n_n 16 rfl rfl).symm]
  refine Finset.sum_congr rfl fun k _ => ?_
  have hk := ValueIdx.contrEquiv1_symm_val dot_S5000x16_S16x1_S5000x1_1_0_0_1_n_n 16 rfl rfl k
  have el : dot_S5000x16_S16x1_S5000x1_1_0_0_1_n_n.lhsIdx j ((ValueIdx.contrEquiv1 dot_S5000x16_S16x1_S5000x1_1_0_0_1_n_n 16 rfl rfl).symm k) = brow j k := funext fun a => Fin.ext (by
    match a with
    | ⟨0, _⟩ => exact lhs_ax0 _ _
    | ⟨1, _⟩ => exact (lhs_ax1 _ _).trans hk)
  have er : dot_S5000x16_S16x1_S5000x1_1_0_0_1_n_n.rhsIdx j ((ValueIdx.contrEquiv1 dot_S5000x16_S16x1_S5000x1_1_0_0_1_n_n 16 rfl rfl).symm k) = bcol j k := funext fun a => Fin.ext (by
    match a with
    | ⟨0, _⟩ => exact (rhs_ax0 _ _).trans hk
    | ⟨1, _⟩ => exact rhs_ax1 _ _)
  rw [el, er]

/-! ## The body's stored value at an index -/

/-- The 1 × 1 bias broadcast along the rows, at (p, 0), is its one entry (the output's column index is below 1). -/
theorem bias_at (x4 : Vec Ideal S1x1 .f32) (j : S5000x1.Idx) :
    broadcastTo S5000x1 x4 broadcasts_S1x1_S5000x1 j = x4 (bbias j) :=
  broadcastTo_apply x4 broadcasts_S1x1_S5000x1 j (bbias j) (fun a => by
    match a with
    | ⟨0, _⟩ => rfl
    | ⟨1, _⟩ =>
      have h : (j 1).val < 1 := (j 1).isLt
      show (j 1).val = 0
      omega)

/-- What the body stores, at (p, 0), from the five loaded blocks. -/
theorem pay_at (x0 x1 : Vec Ideal S5000x16 .f32) (x2 x3 : Vec Ideal S16x1 .f32) (x4 : Vec Ideal S1x1 .f32) (j : S5000x1.Idx) :
    k1_pay1 (F := Ideal) x0 x1 x2 x3 x4 j
      = ((∑ k : Fin 16, x0 (brow j k) * x2 (bcol j k)) + (∑ k : Fin 16, x1 (brow j k) * x3 (bcol j k))) + x4 (bbias j) := by
  unfold k1_pay1
  simp only [shapeCast_self]
  rw [ValueIdx.addf_apply, ValueIdx.addf_apply, matmul_at, matmul_at, bias_at]
  rfl

/-! ## The index maps over the grid -/

theorem hz : (![0, 0] : Fin 2 → Nat) = fun _ => 0 := funext fun a => by fin_cases a <;> rfl

/-- Point t's blocks: block row t of the two row-blocked inputs and of the output; the two weight columns and the
    bias are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks

variable (V : (c : Dev nD) → (b : Ref sig .tc) → Buf (Elt Ideal) ((c : Thread nD τ).loc b))

/-! ## Each input block read where the output block's entry lies

An entry of a block has array coordinate (block index) × (block extent) + (coordinate inside the block) on each axis. -/

/-- The aggregated hidden features' block, at (p, k). -/
theorem read_agg (c : Dev nD) (t : Fin cfg1.N) (j : S5000x1.Idx) (k : Fin 16) :
    iblk1 V c 0 t (brow j k) = V c main_v41 (row16 (((cfg1.win 5).blk t).view.emb j) k) := by
  obtain ⟨e00, e01, e10, e11, e20, e21, e30, e31, e40, e41, e50, e51⟩ := idx_facts t
  show V c main_v41 (((cfg1.win 0).blk t).view.emb (brow j k)) = _
  refine congrArg (V c main_v41) (funext fun a => Fin.ext ?_)
  match a with
  | ⟨0, _⟩ =>
    show win1_0.index t (0 : Fin 2) * 5000 + 1 * (j 0).val = win1_5.index t (0 : Fin 2) * 5000 + 1 * (j 0).val
    omega
  | ⟨1, _⟩ =>
    show win1_0.index t (1 : Fin 2) * 16 + 1 * k.val = k.val
    omega

/-- The hidden features' block, at (p, k). -/
theorem read_h (c : Dev nD) (t : Fin cfg1.N) (j : S5000x1.Idx) (k : Fin 16) :
    iblk1 V c 1 t (brow j k) = V c main_v28 (row16 (((cfg1.win 5).blk t).view.emb j) k) := by
  obtain ⟨e00, e01, e10, e11, e20, e21, e30, e31, e40, e41, e50, e51⟩ := idx_facts t
  show V c main_v28 (((cfg1.win 1).blk t).view.emb (brow j k)) = _
  refine congrArg (V c main_v28) (funext fun a => Fin.ext ?_)
  match a with
  | ⟨0, _⟩ =>
    show win1_1.index t (0 : Fin 2) * 5000 + 1 * (j 0).val = win1_5.index t (0 : Fin 2) * 5000 + 1 * (j 0).val
    omega
  | ⟨1, _⟩ =>
    show win1_1.index t (1 : Fin 2) * 16 + 1 * k.val = k.val
    omega

/-- The first weight column, at (k, 0). -/
theorem read_wl (c : Dev nD) (t : Fin cfg1.N) (j : S5000x1.Idx) (k : Fin 16) :
    iblk1 V c 2 t (bcol j k) = V c main_v42 (col16 (((cfg1.win 5).blk t).view.emb j) k) := by
  obtain ⟨e00, e01, e10, e11, e20, e21, e30, e31, e40, e41, e50, e51⟩ := idx_facts t
  show V c main_v42 (((cfg1.win 2).blk t).view.emb (bcol j k)) = _
  refine congrArg (V c main_v42) (funext fun a => Fin.ext ?_)
  match a with
  | ⟨0, _⟩ =>
    show win1_2.index t (0 : Fin 2) * 16 + 1 * k.val = k.val
    omega
  | ⟨1, _⟩ =>
    show win1_2.index t (1 : Fin 2) * 1 + 1 * (j 1).val = win1_5.index t (1 : Fin 2) * 1 + 1 * (j 1).val
    omega

/-- The second weight column, at (k, 0). -/
theorem read_wr (c : Dev nD) (t : Fin cfg1.N) (j : S5000x1.Idx) (k : Fin 16) :
    iblk1 V c 3 t (bcol j k) = V c main_v43 (col16 (((cfg1.win 5).blk t).view.emb j) k) := by
  obtain ⟨e00, e01, e10, e11, e20, e21, e30, e31, e40, e41, e50, e51⟩ := idx_facts t
  show V c main_v43 (((cfg1.win 3).blk t).view.emb (bcol j k)) = _
  refine congrArg (V c main_v43) (funext fun a => Fin.ext ?_)
  match a with
  | ⟨0, _⟩ =>
    show win1_3.index t (0 : Fin 2) * 16 + 1 * k.val = k.val
    omega
  | ⟨1, _⟩ =>
    show win1_3.index t (1 : Fin 2) * 1 + 1 * (j 1).val = win1_5.index t (1 : Fin 2) * 1 + 1 * (j 1).val
    omega

/-- The bias, at (0, 0). -/
theorem read_b (c : Dev nD) (t : Fin cfg1.N) (j : S5000x1.Idx) :
    iblk1 V c 4 t (bbias j) = V c main_v44 (bias1 (((cfg1.win 5).blk t).view.emb j)) := by
  obtain ⟨e00, e01, e10, e11, e20, e21, e30, e31, e40, e41, e50, e51⟩ := idx_facts t
  show V c main_v44 (((cfg1.win 4).blk t).view.emb (bbias j)) = _
  refine congrArg (V c main_v44) (funext fun a => Fin.ext ?_)
  match a with
  | ⟨0, _⟩ =>
    show win1_4.index t (0 : Fin 2) * 1 + 1 * 0 = 0
    omega
  | ⟨1, _⟩ =>
    show win1_4.index t (1 : Fin 2) * 1 + 1 * (j 1).val = win1_5.index t (1 : Fin 2) * 1 + 1 * (j 1).val
    omega

/-! ## What a point writes back, and the array after the region -/

/-- Point t writes back block t of the second layer's combination of the region's entry arrays. -/
theorem flushed_eq (c : Dev nD) (t : Fin cfg1.N) :
    (dat1 (F := Ideal) V c).flushed 5 t = ((cfg1.win 5).blk t).view.read (Elt Ideal)
      (layer2 (V c main_v41) (V c main_v28) (V c main_v42) (V c main_v43) (V c main_v44)) := by
  show (cfg1.win 5).cut (grid1.coords t) ((dat1 (F := Ideal) V c).after 5 t) = _
  rw [after1_5]
  unfold out1_5
  rw [View.canon_unit_zero hz]
  simp only [View.ld_unit_zero (S := S5000x16) hz, View.ld_unit_zero (S := S16x1) hz, View.ld_unit_zero (S := S1x1) hz]
  funext j
  show k1_pay1 (F := Ideal) (iblk1 V c 0 t) (iblk1 V c 1 t) (iblk1 V c 2 t) (iblk1 V c 3 t) (iblk1 V c 4 t) j
      = layer2 (V c main_v41) (V c main_v28) (V c main_v42) (V c main_v43) (V c main_v44) (((cfg1.win 5).blk t).view.emb j)
  refine (pay_at (iblk1 V c 0 t) (iblk1 V c 1 t) (iblk1 V c 2 t) (iblk1 V c 3 t) (iblk1 V c 4 t) j).trans ?_
  unfold layer2
  simp only [read_agg V c t j, read_h V c t j, read_wl V c t j, read_wr V c t j, read_b V c t j]

end Blocks

/-- An index of the output array is in point t's block iff each coordinate is in the block's range on its axis. -/
theorem mem_blk (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v45).slice (win1_5.rect t)).set ↔ _
  rw [View.set_slice_whole, Rect.mem_set_unit]
  exact Iff.rfl

/-- The 20 blocks of 5000 rows tile the 100000 rows: row r is in the block of point r / 5000. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have ht : (i 0).val / 5000 < cfg1.N := by show (i 0).val / 5000 < grid1.N; rw [N_1]; omega
  obtain ⟨-, -, -, -, -, -, -, -, -, -, e50, e51⟩ := idx_facts ⟨(i 0).val / 5000, ht⟩
  refine ⟨⟨(i 0).val / 5000, ht⟩, flush1_5 _, ?_⟩
  rw [mem_blk]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    have e : win1_5.index ⟨(i 0).val / 5000, ht⟩ (0 : Fin 2) = (i 0).val / 5000 := e50
    omega
  | ⟨1, _⟩ =>
    show win1_5.index ⟨(i 0).val / 5000, ht⟩ (1 : Fin 2) * 1 ≤ (i 1).val ∧ (i 1).val < win1_5.index ⟨(i 0).val / 5000, ht⟩ (1 : Fin 2) * 1 + 1
    omega

/-- THE ARRAY AFTER THE REGION: the second layer's combination of the arrays the region was entered with. -/
theorem final (V : (c : Dev nD) → (b : Ref sig .tc) → Buf (Elt Ideal) ((c : Thread nD τ).loc b)) (c : Dev nD) :
    (dat1 (F := Ideal) V c).arrAt 5 cfg1.N = layer2 (V c main_v41) (V c main_v28) (V c main_v42) (V c main_v43) (V c main_v44) :=
  (dat1 (F := Ideal) V c).arrAt_eq_of_cover 5 _ (fun t _ => flushed_eq V c t) cover

end Cert.KernelIdeal.Region1

end
-- ==== Proof.Aggregate.lean ====
/-
  The second layer's mean aggregation as ONE function of the hidden features h and the edge list e: gather h at the
  (wrapped) source of every edge, add each gathered row into its destination node's row, and scale every node's row
  by the reciprocal of its in-degree (clamped below at one). Both programs apply exactly these operations; they are
  named once here and never opened.
-/
import proofs.«157613_j14920716386718_1_alg».proof.Proof.Gen.ReferenceIdeal.Read

noncomputable section

namespace Cert.Aggregate

open Idealize.ShloMosaic Cert.ReferenceIdeal Cert.ReferenceIdeal.Read

variable {F : FTy → Type} [FloatOps F]

/-- Mean aggregation of 16-channel features over the edge list. -/
def aggTwo (h : (⟨S100000x16, .f32⟩ : BufTy).Contents (Elt F)) (e : (⟨S2x3200000, .i32⟩ : BufTy).Contents (Elt F)) :
    (⟨S100000x16, .f32⟩ : BufTy).Contents (Elt F) :=
  mulf (Host.scatterAdd scatter_S100000x16_S3200000x1_S3200000x16_1_0_0_1 (val_main_v41 (F := F)) (val_main_v42 (F := F) e)
      (Host.gather gather_S100000x16_S3200000x1_S3200000x16_1_0_n_n_0_1_116 h (val_main_v39 (F := F) e)))
    (val_main_v45 (F := F) e)

/-- The reference's aggregated second-layer input is that function of its hidden features. -/
theorem val_main_v46_eq (x0 : (⟨S100000x32, .f32⟩ : BufTy).Contents (Elt F)) (x1 : (⟨S2x3200000, .i32⟩ : BufTy).Contents (Elt F))
    (x2 x3 : (⟨S16x32, .f32⟩ : BufTy).Contents (Elt F)) (x4 : (⟨S16, .f32⟩ : BufTy).Contents (Elt F)) :
    val_main_v46 (F := F) x0 x1 x2 x3 x4 = aggTwo (val_main_v33 (F := F) x0 x1 x2 x3 x4) x1 := rfl

end Cert.Aggregate

end
-- ==== Proof.HostSide.lean ====
/-
  The arrays each region is entered with, and the result after the last stretch, as functions of the launch arguments.

  Before the first region the host computes, from the edge list e: the sources and destinations of the edges, every
  node's in-degree and its clamped reciprocal, the mean-aggregated node features, the two transposed weight matrices
  and the bias as a one-row matrix. Between the regions it does the same with the first region's output h in place of
  the node features. After the second region it flattens the 100000 × 1 output.

  The reference program applies the same operations to the same arguments, so each of these arrays is, as a term, a
  stage of the reference read at the launch arguments; the second layer's aggregation is the one function of (h, e)
  both programs share. Nothing here opens a gather or a scatter.
-/
import proofs.«157613_j14920716386718_1_alg».proof.Proof.Gen.KernelIdeal.Frame
import proofs.«157613_j14920716386718_1_alg».proof.Proof.Gen.ReferenceIdeal.Read
import proofs.«157613_j14920716386718_1_alg».proof.Proof.Aggregate

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first region's entry arrays -/

set_option maxHeartbeats 4000000 in
/-- The aggregated node features. -/
theorem entry0_agg (c : Dev nD) :
    V1 m ρ c main_v24 = Cert.ReferenceIdeal.Read.val_main_v24 (F := F) (m ((c : Thread nD τ).loc main_arg0)) (m ((c : Thread nD τ).loc main_arg1)) := by
  show StableHlo.after hostOps0 (W0 m ρ c) (Proc.devRef .tc main_v24) = _
  after_results_simp <;> rfl

set_option maxHeartbeats 4000000 in
/-- The node features, as launched. -/
theorem entry0_x (c : Dev nD) : V1 m ρ c main_arg0 = (m ((c : Thread nD τ).loc main_arg0)) := by
  show StableHlo.after hostOps0 (W0 m ρ c) (Proc.devRef .tc main_arg0) = _
  after_results_simp <;> rfl

set_option maxHeartbeats 4000000 in
/-- The first weight matrix, transposed. -/
theorem entry0_wl (c : Dev nD) : V1 m ρ c main_v25 = Cert.ReferenceIdeal.Read.val_main_v25 (F := F) (m ((c : Thread nD τ).loc main_arg2)) := by
  show StableHlo.after hostOps0 (W0 m ρ c) (Proc.devRef .tc main_v25) = _
  after_results_simp <;> rfl

set_option maxHeartbeats 4000000 in
/-- The second weight matrix, transposed. -/
theorem entry0_wr (c : Dev nD) : V1 m ρ c main_v26 = Cert.ReferenceIdeal.Read.val_main_v30 (F := F) (m ((c : Thread nD τ).loc main_arg3)) := by
  show StableHlo.after hostOps0 (W0 m ρ c) (Proc.devRef .tc main_v26) = _
  after_results_simp <;> rfl

set_option maxHeartbeats 4000000 in
/-- The bias as a one-row matrix. -/
theorem entry0_b (c : Dev nD) : V1 m ρ c main_v27 = shapeCast S1x16 (m ((c : Thread nD τ).loc main_arg4)) shapeCasts_S16_S1x16 := by
  show StableHlo.after hostOps0 (W0 m ρ c) (Proc.devRef .tc main_v27) = _
  after_results_simp <;> rfl

/-! ## What the first region leaves untouched, and its output -/

set_option maxHeartbeats 4000000 in
/-- The edges' sources, after the first region as before it. -/
theorem mid_src (c : Dev nD) : W2 m ρ c (Proc.devRef .tc main_v1) = Cert.ReferenceIdeal.Read.val_main_v1 (F := F) (m ((c : Thread nD τ).loc main_arg1)) := by
  rw [W2_of_ne m ρ c main_v1 (by decide)]
  show StableHlo.after hostOps0 (W0 m ρ c) (Proc.devRef .tc main_v1) = _
  after_results_simp <;> rfl

set_option maxHeartbeats 4000000 in
/-- The edges' destinations. -/
theorem mid_dst (c : Dev nD) : W2 m ρ c (Proc.devRef .tc main_v3) = Cert.ReferenceIdeal.Read.val_main_v3 (F := F) (m ((c : Thread nD τ).loc main_arg1)) := by
  rw [W2_of_ne m ρ c main_v3 (by decide)]
  show StableHlo.after hostOps0 (W0 m ρ c) (Proc.devRef .tc main_v3) = _
  after_results_simp <;> rfl

set_option maxHeartbeats 4000000 in
/-- The reciprocal in-degrees. -/
theorem mid_deginv (c : Dev nD) : W2 m ρ c (Proc.devRef .tc main_v11) = Cert.ReferenceIdeal.Read.val_main_v11 (F := F) (m ((c : Thread nD τ).loc main_arg1)) := by
  rw [W2_of_ne m ρ c main_v11 (by decide)]
  show StableHlo.after hostOps0 (W0 m ρ c) (Proc.devRef .tc main_v11) = _
  after_results_simp <;> rfl

set_option maxHeartbeats 4000000 in
/-- An argument the second stretch reads, after the first region as launched. -/
theorem mid_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results_simp <;> rfl

set_option maxHeartbeats 4000000 in
theorem mid_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results_simp <;> rfl

set_option maxHeartbeats 4000000 in
theorem mid_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results_simp <;> rfl

/-- The first region's output array: what its write-backs leave. -/
theorem mid_hidden (c : Dev nD) : W2 m ρ c (Proc.devRef .tc main_v28) = (dat0 (V1 m ρ) c).arrAt 5 cfg0.N :=
  W2_arr m ρ c 5

/-! ## The second region's entry arrays -/

set_option maxHeartbeats 4000000 in
/-- The aggregated hidden features: the shared aggregation of the first region's output over the edge list. -/
theorem entry1_agg (c : Dev nD) :
    V3 m ρ c main_v41 = Cert.Aggregate.aggTwo (F := F) (W2 m ρ c (Proc.devRef .tc main_v28)) (m ((c : Thread nD τ).loc main_arg1)) := by
  show StableHlo.after hostOps1 (W2 m ρ c) (Proc.devRef .tc main_v41) = _
  after_results_simp
  rw [mid_src m ρ c, mid_dst m ρ c, mid_deginv m ρ c]
  rfl

set_option maxHeartbeats 4000000 in
/-- The hidden features themselves: the first region's output, which the second stretch does not write. -/
theorem entry1_h (c : Dev nD) : V3 m ρ c main_v28 = W2 m ρ c (Proc.devRef .tc main_v28) := by
  show StableHlo.after hostOps1 (W2 m ρ c) (Proc.devRef .tc main_v28) = _
  after_results_simp <;> rfl

set_option maxHeartbeats 4000000 in
/-- The second layer's first weight matrix, transposed. -/
theorem entry1_wl (c : Dev nD) : V3 m ρ c main_v42 = Cert.ReferenceIdeal.Read.val_main_v47 (F := F) (m ((c : Thread nD τ).loc main_arg5)) := by
  show StableHlo.after hostOps1 (W2 m ρ c) (Proc.devRef .tc main_v42) = _
  after_results_simp
  rw [mid_arg5 m ρ c]
  rfl

set_option maxHeartbeats 4000000 in
/-- The second layer's second weight matrix, transposed. -/
theorem entry1_wr (c : Dev nD) : V3 m ρ c main_v43 = Cert.ReferenceIdeal.Read.val_main_v52 (F := F) (m ((c : Thread nD τ).loc main_arg6)) := by
  show StableHlo.after hostOps1 (W2 m ρ c) (Proc.devRef .tc main_v43) = _
  after_results_simp
  rw [mid_arg6 m ρ c]
  rfl

set_option maxHeartbeats 4000000 in
/-- The second layer's bias as a 1 × 1 matrix. -/
theorem entry1_b (c : Dev nD) : V3 m ρ c main_v44 = shapeCast S1x1 (m ((c : Thread nD τ).loc main_arg7)) shapeCasts_S1_S1x1 := by
  show StableHlo.after hostOps1 (W2 m ρ c) (Proc.devRef .tc main_v44) = _
  after_results_simp
  rw [mid_arg7 m ρ c]
  rfl

/-! ## The result -/

/-- After the last stretch the result is the second region's output array, flattened. -/
theorem result (c : Dev nD) :
    W5 m ρ c (Proc.devRef .tc main_v46) = shapeCast S100000 ((dat1 (V3 m ρ) c).arrAt 5 cfg1.N) shapeCasts_S100000x1_S100000 := by
  have h : W4 m ρ c (Proc.devRef .tc main_v45) = (dat1 (V3 m ρ) c).arrAt 5 cfg1.N := W4_arr m ρ c 5
  rw [← h]
  show StableHlo.after hostOps2 (W4 m ρ c) (Proc.devRef .tc main_v46) = _
  after_results
  rfl

end Cert.KernelIdeal.HostSide

end
-- ==== Proof.RefSide.lean ====
/-
  The reference program read at the ideal instance: its two layers as the combination functions of Combine.lean.

  The reference adds the bias to the first product and then adds the second product,

      ( Σ_k A(r,k) · Wl(k,o)  +  b(o) )  +  Σ_k X(r,k) · Wr(k,o),

  where the combination function adds the two products first and the bias last. On the extended reals addition is
  commutative and associative (that needs no finiteness), so the two agree entry by entry: (a + b) + c = (a + c) + b.
  The bias reaches entry (r, o) through two broadcasts in the reference and through a reshape to one row here; both
  read its entry o.
-/
import proofs.«157613_j14920716386718_1_alg».proof.Proof.Gen.ReferenceIdeal.Read
import proofs.«157613_j14920716386718_1_alg».proof.Proof.Combine
import proofs.«157613_j14920716386718_1_alg».proof.Proof.Aggregate
import Idealize.ShloMosaic.Lib.Pipeline.Value
import Idealize.ShloMosaic.Lib.ValueIdx
import Idealize.ShloMosaic.PureOps.Ideal.Laws

set_option maxRecDepth 16384

noncomputable section

namespace Cert.ReferenceIdeal.RefSide

open Cert.ReferenceIdeal Cert.ReferenceIdeal.Read Cert.Combine Cert.Aggregate
open Idealize.ShloMosaic

/-! ## The reference's operand indices are the combination functions' -/

theorem lidx26_eq (i : S100000x16.Idx) (k : Fin 32) : lidx_main_v26 i k = row32 i k :=
  funext fun a => Fin.ext (by match a with | ⟨0, _⟩ => rfl | ⟨1, _⟩ => rfl)
theorem ridx26_eq (i : S100000x16.Idx) (k : Fin 32) : ridx_main_v26 i k = col32 i k :=
  funext fun a => Fin.ext (by match a with | ⟨0, _⟩ => rfl | ⟨1, _⟩ => rfl)
theorem lidx31_eq (i : S100000x16.Idx) (k : Fin 32) : lidx_main_v31 i k = row32 i k :=
  funext fun a => Fin.ext (by match a with | ⟨0, _⟩ => rfl | ⟨1, _⟩ => rfl)
theorem ridx31_eq (i : S100000x16.Idx) (k : Fin 32) : ridx_main_v31 i k = col32 i k :=
  funext fun a => Fin.ext (by match a with | ⟨0, _⟩ => rfl | ⟨1, _⟩ => rfl)
theorem lidx48_eq (i : S100000x1.Idx) (k : Fin 16) : lidx_main_v48 i k = row16 i k :=
  funext fun a => Fin.ext (by match a with | ⟨0, _⟩ => rfl | ⟨1, _⟩ => rfl)
theorem ridx48_eq (i : S100000x1.Idx) (k : Fin 16) : ridx_main_v48 i k = col16 i k :=
  funext fun a => Fin.ext (by match a with | ⟨0, _⟩ => rfl | ⟨1, _⟩ => rfl)
theorem lidx53_eq (i : S100000x1.Idx) (k : Fin 16) : lidx_main_v53 i k = row16 i k :=
  funext fun a => Fin.ext (by match a with | ⟨0, _⟩ => rfl | ⟨1, _⟩ => rfl)
theorem ridx53_eq (i : S100000x1.Idx) (k : Fin 16) : ridx_main_v53 i k = col16 i k :=
  funext fun a => Fin.ext (by match a with | ⟨0, _⟩ => rfl | ⟨1, _⟩ => rfl)

/-! ## The biases at an entry -/

/-- The first layer's bias, reshaped to one row, at (0, o) is its entry o: where the reference's two broadcasts read it. -/
theorem bias16_read (x4 : (⟨S16, .f32⟩ : BufTy).Contents (Elt Ideal)) (hb : S16.ShapeCasts S1x16) (i : S100000x16.Idx) :
    shapeCast S1x16 x4 hb (bias16 i) = x4 (idx_main_v27 (idx_main_v28 i)) :=
  shapeCast_apply x4 hb (bias16 i) (idx_main_v27 (idx_main_v28 i)) (by
    rewrite [Shape.rowMajor_val_one, Shape.rowMajor_val_two]
    show (i 1).val = 0 * 16 + (i 1).val
    omega)

/-- The second layer's bias, reshaped to 1 × 1, at (0, 0) is its one entry. -/
theorem bias1_read (x7 : (⟨S1, .f32⟩ : BufTy).Contents (Elt Ideal)) (hb : S1.ShapeCasts S1x1) (i : S100000x1.Idx) :
    shapeCast S1x1 x7 hb (bias1 i) = x7 (idx_main_v49 (idx_main_v50 i)) :=
  shapeCast_apply x7 hb (bias1 i) (idx_main_v49 (idx_main_v50 i)) (by
    rewrite [Shape.rowMajor_val_one, Shape.rowMajor_val_two]
    have h1 : (i 1).val < 1 := (i 1).isLt
    show 0 = 0 * 1 + (i 1).val
    omega)

/-! ## The first layer -/

/-- The reference's hidden features are the first layer's combination of its aggregated features, the node features,
    the two transposed weight matrices and the bias as one row. -/
theorem hidden (x0 : (⟨S100000x32, .f32⟩ : BufTy).Contents (Elt Ideal)) (x1 : (⟨S2x3200000, .i32⟩ : BufTy).Contents (Elt Ideal))
    (x2 x3 : (⟨S16x32, .f32⟩ : BufTy).Contents (Elt Ideal)) (x4 : (⟨S16, .f32⟩ : BufTy).Contents (Elt Ideal)) (hb : S16.ShapeCasts S1x16) :
    val_main_v33 (F := Ideal) x0 x1 x2 x3 x4
      = layer1 (val_main_v24 (F := Ideal) x0 x1) x0 (val_main_v25 (F := Ideal) x2) (val_main_v30 (F := Ideal) x3) (shapeCast S1x16 x4 hb) := by
  funext i
  rw [val_main_v33_apply, val_main_v32_apply, val_main_v29_apply, val_main_v26_apply, val_main_v31_apply,
    val_main_v28_apply, val_main_v27_apply, val_main_call0_v0_apply, val_main_call0_cst_apply]
  unfold layer1
  rw [bias16_read x4 hb i]
  simp only [Ideal.addf_def, Ideal.maximumf_def, Ideal.ofBits_def, lidx26_eq, ridx26_eq, lidx31_eq, ridx31_eq]
  rw [add_right_comm]

/-! ## The second layer -/

/-- The reference's 100000 × 1 output is the second layer's combination of the shared aggregation of its hidden
    features, the hidden features, the two transposed weight columns and the bias as a 1 × 1 matrix. -/
theorem out_eq (x0 : (⟨S100000x32, .f32⟩ : BufTy).Contents (Elt Ideal)) (x1 : (⟨S2x3200000, .i32⟩ : BufTy).Contents (Elt Ideal))
    (x2 x3 : (⟨S16x32, .f32⟩ : BufTy).Contents (Elt Ideal)) (x4 : (⟨S16, .f32⟩ : BufTy).Contents (Elt Ideal))
    (x5 x6 : (⟨S1x16, .f32⟩ : BufTy).Contents (Elt Ideal)) (x7 : (⟨S1, .f32⟩ : BufTy).Contents (Elt Ideal)) (hb : S1.ShapeCasts S1x1) :
    val_main_v54 (F := Ideal) x0 x1 x2 x3 x4 x5 x6 x7
      = layer2 (aggTwo (F := Ideal) (val_main_v33 (F := Ideal) x0 x1 x2 x3 x4) x1) (val_main_v33 (F := Ideal) x0 x1 x2 x3 x4)
          (val_main_v47 (F := Ideal) x5) (val_main_v52 (F := Ideal) x6) (shapeCast S1x1 x7 hb) := by
  funext i
  rw [val_main_v54_apply, val_main_v51_apply, val_main_v48_apply, val_main_v53_apply, val_main_v50_apply, val_main_v49_apply,
    val_main_v46_eq]
  unfold layer2
  rw [bias1_read x7 hb i]
  simp only [Ideal.addf_def, lidx48_eq, ridx48_eq, lidx53_eq, ridx53_eq]
  rw [add_right_comm]

end Cert.ReferenceIdeal.RefSide

end
-- ==== Proof.lean ====
/-
  A two-layer graph convolution with mean aggregation, computed with two kernel regions, against its plain reference:
  equal results on the extended reals.

  Both programs compute, from node features x (100000 × 32) and an edge list e (2 × 3200000): every node's in-degree d,
  the mean a₁ = (Σ over incoming edges of x at the edge's source) / max(d, 1), the hidden features
  h = max(a₁ · Wl₁ᵀ + x · Wr₁ᵀ + b₁, 0) (100000 × 16), the mean a₂ of h over the same edges, and the result
  a₂ · Wl₂ᵀ + h · Wr₂ᵀ + b₂ (100000 entries). The degree, the gathers, the scatter-adds and the scaling are the same host
  operations in both programs and are never opened here: the second layer's aggregation is carried as one function
  of (h, e), and the first layer's aggregated features are, as a term, the reference's own stage.

  What differs is each layer's last step. The kernel regions run it block by block (20 blocks of 5000 nodes), each
  block two matrix products into a zero accumulator, then the bias, then (layer 1) the clamp; the reference runs it
  on whole arrays and adds the bias BEFORE the second product. Blocks of rows tile the rows, a change of float format
  is the identity on the extended reals, and (u + b) + v = (u + v) + b there without any finiteness; so the two
  programs' results are one function of the arguments.

  The three frames: the two kernel programs' by the launch of their five segments (host stretch, region, host stretch,
  region, host stretch), the reference's by its run with the result dropped. The idealization rewrote nothing, so
  there is nothing to preserve.
-/
import proofs.«157613_j14920716386718_1_alg».proof.Defs
import proofs.«157613_j14920716386718_1_alg».proof.Proof.Gen.Kernel
import proofs.«157613_j14920716386718_1_alg».proof.Proof.Gen.Kernel.Skeleton
import proofs.«157613_j14920716386718_1_alg».proof.Proof.Gen.Kernel.Launch
import proofs.«157613_j14920716386718_1_alg».proof.Proof.Gen.Kernel.Points
import proofs.«157613_j14920716386718_1_alg».proof.Proof.Gen.Kernel.Frame
import proofs.«157613_j14920716386718_1_alg».proof.Proof.Gen.KernelIdeal
import proofs.«157613_j14920716386718_1_alg».proof.Proof.Gen.KernelIdeal.Skeleton
import proofs.«157613_j14920716386718_1_alg».proof.Proof.Gen.KernelIdeal.Launch
import proofs.«157613_j14920716386718_1_alg».proof.Proof.Gen.KernelIdeal.Points
import proofs.«157613_j14920716386718_1_alg».proof.Proof.Gen.KernelIdeal.Frame
import proofs.«157613_j14920716386718_1_alg».proof.Proof.Gen.ReferenceIdeal
import proofs.«157613_j14920716386718_1_alg».proof.Proof.Gen.ReferenceIdeal.Run
import proofs.«157613_j14920716386718_1_alg».proof.Proof.Gen.ReferenceIdeal.Read
import proofs.«157613_j14920716386718_1_alg».proof.Proof.Gen.Pre_finite_inputs
import proofs.«157613_j14920716386718_1_alg».proof.Proof.KernelRun
import proofs.«157613_j14920716386718_1_alg».proof.Proof.Region0
import proofs.«157613_j14920716386718_1_alg».proof.Proof.Region1
import proofs.«157613_j14920716386718_1_alg».proof.Proof.HostSide
import proofs.«157613_j14920716386718_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

/-! ## The kernel program's result as a function of its arguments -/

section KernelValue

open Cert.KernelIdeal Cert.KernelIdeal.Gen

variable (m : (ℓ : Loc Cert.KernelIdeal.nD Cert.KernelIdeal.τ Cert.KernelIdeal.sig) → Buf (Elt Ideal) ℓ)
  (ρ : Dev Cert.KernelIdeal.nD → PrngReg)

/-- After the first region its output array holds the reference's hidden features of the launch arguments: the
    region leaves the first layer's combination of its entry arrays, those are the reference's stages, and the
    reference's hidden features are that combination. -/
theorem hidden_eq (c : Dev Cert.KernelIdeal.nD) :
    W2 m ρ c (Proc.devRef .tc main_v28)
      = Cert.ReferenceIdeal.Read.val_main_v33 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  rw [Cert.KernelIdeal.HostSide.mid_hidden, Cert.KernelIdeal.Region0.final (V1 m ρ) c,
    Cert.KernelIdeal.HostSide.entry0_agg, Cert.KernelIdeal.HostSide.entry0_x, Cert.KernelIdeal.HostSide.entry0_wl,
    Cert.KernelIdeal.HostSide.entry0_wr, Cert.KernelIdeal.HostSide.entry0_b]
  exact (Cert.ReferenceIdeal.RefSide.hidden _ _ _ _ _ _).symm

/-- After the last stretch the result holds the reference's result term of the launch arguments. -/
theorem result_eq (c : Dev Cert.KernelIdeal.nD) :
    W5 m ρ c (Proc.devRef .tc main_v46)
      = Cert.ReferenceIdeal.Read.val_main_v55 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) := by
  rw [Cert.KernelIdeal.HostSide.result, Cert.KernelIdeal.Region1.final (V3 m ρ) c,
    Cert.KernelIdeal.HostSide.entry1_agg, Cert.KernelIdeal.HostSide.entry1_h, Cert.KernelIdeal.HostSide.entry1_wl,
    Cert.KernelIdeal.HostSide.entry1_wr, Cert.KernelIdeal.HostSide.entry1_b, hidden_eq]
  unfold Cert.ReferenceIdeal.Read.val_main_v55
  rw [← Cert.ReferenceIdeal.RefSide.out_eq]

end KernelValue

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization applied no rewrite. -/
theorem preserves : Cert.preserves_Kernel_KernelIdeal := trivial

/-- Both programs end, the kernel's result at the last boundary's contents and the reference's at its composed term;
    from memories agreeing on the arguments these are the same array. -/
theorem algebraic : Cert.algebraic_KernelIdeal_ReferenceIdeal := by
  intro m ρ m' ρ' _ hagree
  refine ⟨fun c => Cert.KernelIdeal.Gen.W5 m ρ c (Proc.devRef .tc Cert.KernelIdeal.main_v46),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v55_eq, h0, h1, h2, h3, h4, h5, h6, h7]
  exact (result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
